-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384 : Shape := ⟨1, ![16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x16384 .f32) (main_arg1 : FVec F S16384 .f32) (main_arg2 : IVec S16384 32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 1024#32
  let main_v13 : IVec S16384 32 := broadcastInDim S16384 ![] bcast_S_S16384 main_c_4
  let main_v14 : IVec S16384 1 := cmpi .slt main_arg2 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S4096x16384 : Shape := ⟨2, ![4096, 16384]⟩
abbrev S16384 : Shape := ⟨1, ![16384]⟩
abbrev S1024 : Shape := ⟨1, ![1024]⟩
abbrev S16384x1 : Shape := ⟨2, ![16384, 1]⟩
abbrev S1x1024 : Shape := ⟨2, ![1, 1024]⟩
abbrev S16384x1024 : Shape := ⟨2, ![16384, 1024]⟩
abbrev S_ : Shape := ⟨0, ![]⟩
abbrev S4096x1024 : Shape := ⟨2, ![4096, 1024]⟩
abbrev S256x2048 : Shape := ⟨2, ![256, 2048]⟩
abbrev S256x1024 : Shape := ⟨2, ![256, 1024]⟩
abbrev S2048x1024 : Shape := ⟨2, ![2048, 1024]⟩

abbrev nBuf : Space → Nat
  | .hbm => 16
  | .vmem => 5
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S16384, .i32⟩
  | .hbm, ⟨3, _⟩ => ⟨S1024, .i32⟩
  | .hbm, ⟨4, _⟩ => ⟨S16384x1, .i32⟩
  | .hbm, ⟨5, _⟩ => ⟨S1x1024, .i32⟩
  | .hbm, ⟨6, _⟩ => ⟨S16384x1024, .i32⟩
  | .hbm, ⟨7, _⟩ => ⟨S16384x1024, .i32⟩
  | .hbm, ⟨8, _⟩ => ⟨S16384x1024, .i1⟩
  | .hbm, ⟨9, _⟩ => ⟨S16384x1, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .bf16⟩
  | .hbm, ⟨15, _⟩ => ⟨S4096x1024, .f32⟩
  | .local _ .vmem, ⟨0, _⟩ => ⟨S256x2048, .f32⟩
  | .local _ .vmem, ⟨1, _⟩ => ⟨S256x2048, .f32⟩
  | .local _ .vmem, ⟨2, _⟩ => ⟨S16384x1024, .bf16⟩
  | .local _ .vmem, ⟨3, _⟩ => ⟨S256x1024, .f32⟩
  | .local _ .vmem, ⟨4, _⟩ => ⟨S256x1024, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S16384_S16384x1_0 : S16384.BroadcastsInDim S16384x1 (![0] : Fin 1 → Fin S16384x1.rank)
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  h_S2048x1024 : 0 < S2048x1024.numel
  shapeCasts_S2048x1024_S2048x1024 : S2048x1024.ShapeCasts S2048x1024
  inb_S256x2048_S256x2048_0_0 : ∀ a, (![0, 0] : Fin 2 → Nat) a + S256x2048.size a ≤ S256x2048.size a
  h_S256x2048 : 0 < S256x2048.numel
  shapeCasts_S256x1024_S256x1024 : S256x1024.ShapeCasts S256x1024
  dot_S256x2048_S2048x1024_S256x1024_1_0_0_1_n_n_wf : DotDims.WF S256x2048 S2048x1024 S256x1024 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x1024.size a ≤ S16384x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x16384.size a
  hwx0_0 : ∀ i : grid0.Coords, EltTy.bits .f32 = 32 ∨ (Rect.block (s := S4096x16384) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x1024.size a ≤ S16384x1024.size a
  hwx0_1 : ∀ i : grid0.Coords, EltTy.bits .bf16 = 32 ∨ (Rect.block (s := S16384x1024) S16384x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S16384x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S16384 : Shape := ⟨1, ![16384]⟩
abbrev S1x16384 : Shape := ⟨2, ![1, 16384]⟩
abbrev S_ : Shape := ⟨0, ![]⟩
abbrev S4096x1024 : Shape := ⟨2, ![4096, 1024]⟩
abbrev S16384x1 : Shape := ⟨2, ![16384, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S16384, .i32⟩
  | .hbm, ⟨3, _⟩ => ⟨S1x16384, .f32⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x1024, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S4096x1024, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S_S4096x1024 : S_.BroadcastsInDim S4096x1024 (![] : Fin 0 → Fin S4096x1024.rank)
  bcast_S_S16384 : S_.BroadcastsInDim S16384 (![] : Fin 0 → Fin S16384.rank)
  bcast_S16384_S16384x1_0 : S16384.BroadcastsInDim S16384x1 (![0] : Fin 1 → Fin S16384x1.rank)
  scatter_S4096x1024_S16384x1_S4096x16384_0_1_1_1_wf : ScatterDims.WF S4096x1024 S16384x1 S4096x16384 [0] [1] [1] 1

variable [Facts₀]

def scatter_S4096x1024_S16384x1_S4096x16384_0_1_1_1 : ScatterDims S4096x1024 S16384x1 S4096x16384 where
  updateWindowDims := [0]
  insertedWindowDims := [1]
  scatterDimsToOperandDims := [1]
  indexVectorDim := 1
  wf := scatter_S4096x1024_S16384x1_S4096x16384_0_1_1_1_wf

class Facts : Prop extends Facts₀ where

variable [Facts]
-- ==== Proof.BodyCases.lean ====
/-
  What one grid step leaves in the 256 x 1024 output block, in each of the body's two control cases.

  The body adds, to what the block holds, the product of the step's 256 x 2048 block of x with 2048 rows of the
  16384 x 1024 table: the rows starting at 2048 * k, where k is the step's coordinate along the contracted axis.
  At k = 0 the block is first filled with zeros, so what it "holds" there is the zero block; at every later k
  it is what the step before left. Both facts hold for any interpretation of the floats.
-/
import proofs.«423618_j85710367359545_2_alg».proof.Proof.Gen.KernelIdeal.Frame
import Idealize.ShloMosaic.Lib.Pipeline.Value
import Idealize.ShloMosaic.Lib.Tactic

set_option maxRecDepth 16384

noncomputable section

namespace Cert.KernelIdeal.Steps

open Cert.KernelIdeal Cert.KernelIdeal.Gen Idealize.ShloMosaic Idealize.ShloMosaic.TcCoe Idealize.ShloMosaic.Tactic
open Idealize.SL.Sem

variable {F : FTy → Type} [FloatOps F]

/-- The zero offsets, as the body's whole-block loads and stores spell them. -/
theorem offs_zero : (![0, 0] : Fin 2 → Nat) = fun _ => 0 := funext fun a => by fin_cases a <;> rfl

/-- The 2048 table rows a step at grid coordinates `i` multiplies by: rows 2048 * k onward, all 1024 columns. -/
abbrev tableRows (i : grid0.Coords) (tbl : Vec F S16384x1024 .bf16) : Vec F S2048x1024 .bf16 :=
  View.ld tbl (Rect.unit (s := S16384x1024) (k0_off1 i) S2048x1024.size (k0_off1_inb i))

/-- FIRST STEP of a row block (k = 0): the block ends at zero plus the step's product. -/
theorem first_step (c : Dev nD) (i : grid0.Coords) (arg2 : Memref sig .tc .vmem S256x2048 .f32) (harg2 : arg2.IsWhole)
    (arg3 : Memref sig .tc .vmem S16384x1024 .bf16) (harg3 : arg3.IsWhole) (arg4 : Memref sig .tc .vmem S256x1024 .f32)
    (harg4 : arg4.IsWhole) (hc0 : cond0_0 i) (xblk : Vec F S256x2048 .f32) (tbl : Vec F S16384x1024 .bf16) :
    out0_A_2 c i arg2 harg2 arg3 harg3 arg4 harg4 hc0 xblk tbl = k0_pay2 (tableRows i tbl) xblk k0_pay1 := by
  unfold out0_A_2
  rw [View.read_writes_eq_canon _ _ _ (cover0_A_2 c i arg2 harg2 arg3 harg3 arg4 harg4 hc0 xblk tbl)]
  unfold kernelRun0_A
  dsimp only
  sl_unfold_words
  rw [View.canon_cons_unit_zero (S := S256x1024) offs_zero]
  simp only [View.readAt_eq_ld, harg2.read_unread, harg3.read_unread, View.ld_unit_zero (S := S256x2048) offs_zero,
    View.readCov_unit_zero (S := S256x1024) _ offs_zero]
  rfl

/-- EVERY LATER STEP (k > 0): the block ends at what the step before left plus the step's product. -/
theorem later_step (c : Dev nD) (i : grid0.Coords) (arg2 : Memref sig .tc .vmem S256x2048 .f32) (harg2 : arg2.IsWhole)
    (arg3 : Memref sig .tc .vmem S16384x1024 .bf16) (harg3 : arg3.IsWhole) (arg4 : Memref sig .tc .vmem S256x1024 .f32)
    (harg4 : arg4.IsWhole) (hc0 : ¬cond0_0 i) (xblk : Vec F S256x2048 .f32) (tbl : Vec F S16384x1024 .bf16)
    (prev : Vec F S256x1024 .f32) :
    out0_B_2 c i arg2 harg2 arg3 harg3 arg4 harg4 hc0 xblk tbl prev = k0_pay2 (tableRows i tbl) xblk prev := by
  unfold out0_B_2
  rw [View.read_writes_eq_canon _ _ _ (cover0_B_2 c i arg2 harg2 arg3 harg3 arg4 harg4 hc0 xblk tbl prev)]
  unfold kernelRun0_B
  dsimp only
  sl_unfold_words
  rw [View.canon_unit_zero (S := S256x1024) offs_zero]
  simp only [View.readAt_eq_ld, harg2.read_unread, harg3.read_unread, harg4.read_unread,
    View.ld_unit_zero (S := S256x2048) offs_zero, View.ld_unit_zero (S := S256x1024) offs_zero]
  rfl

end Cert.KernelIdeal.Steps

end
-- ==== Proof.Operands.lean ====
/-
  What a grid step multiplies, as entries of the whole arrays.

  Before the grid runs, the program builds a 16384 x 1024 table from the index vector h and the sign vector s:
  row j holds s j in column h j and zero elsewhere (the comparison is of 32-bit words against the column number,
  so a row whose index is no column number is all zero). Grid step t = 8 * i + k works on rows
  256 * i .. 256 * i + 255 of x, on columns 2048 * k .. 2048 * k + 2047 of x, and on the same 2048 rows of the table.
-/
import proofs.«423618_j85710367359545_2_alg».proof.Proof.BodyCases
import Idealize.ShloMosaic.Lib.Pipeline.Value
import Idealize.ShloMosaic.Lib.StableHlo.Run
import Idealize.ShloMosaic.Lib.StableHlo.Predicate
import Idealize.ShloMosaic.Lib.ValueIdx
import Idealize.ShloMosaic.PureOps.Ideal.Laws

set_option maxRecDepth 16384

noncomputable section

namespace Cert.KernelIdeal.Steps

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The table -/

/-- The signed one-hot table of an index vector `h` and a sign vector `s`, as the program computes it:
    where row j's index equals the column number the entry is `s j`, elsewhere it is the zero constant. -/
def table (h : IVec S16384 32) (s : FVec F S16384 .f32) : FVec F S16384x1024 .bf16 :=
  truncf .bf16 (select
      (cmpi .eq (broadcastInDim S16384x1024 ![0, 1] bcast_S16384x1_S16384x1024_0_1 (broadcastInDim S16384x1 ![0] bcast_S16384_S16384x1_0 h))
        (broadcastInDim S16384x1024 ![0, 1] bcast_S1x1024_S16384x1024_0_1 (broadcastInDim S1x1024 ![1] bcast_S1024_S1x1024_1 (iotaInDim S1024 32 0))))
      (broadcastInDim S16384x1024 ![0, 1] bcast_S16384x1_S16384x1024_0_1 (broadcastInDim S16384x1 ![0] bcast_S16384_S16384x1_0 s))
      (broadcastInDim S16384x1024 ![] bcast_S_S16384x1024 (constant (F := F) S_ .f32 0x00000000#32))) bitsLt_bf16_f32

variable (m : (ℓ : Loc nD τ sig) → Buf (Elt F) ℓ)

/-- The second operand of the grid is that table of the program's second and third arguments. -/
theorem table_found (c : Dev nD) :
    (V m c main_v8 : FVec F S16384x1024 .bf16) = table (m ((c : Thread nD τ).loc main_arg2)) (m ((c : Thread nD τ).loc main_arg1)) := by
  dsimp only [V]
  simp only [hostOps0, hostOps0_1, hostOps0_2, List.flatten_cons, List.flatten_nil, List.append_nil, List.cons_append, List.nil_append]
  after_results
  rfl

/-- Over the extended reals, entry (j, q) of the table: `s j` when row j's index is the word for column q, else 0. -/
theorem table_apply (h : IVec S16384 32) (s : FVec Ideal S16384 .f32) (j : Fin 16384) (q : Fin 1024) :
    table (F := Ideal) h s (ix2 j q)
      = if h (Shape.Idx.ofFin j) = BitVec.ofNat 32 q.val then s (Shape.Idx.ofFin j) else 0 := by
  have e : (ix2 j q : S16384x1024.Idx) = Predicate.ij j q :=
    funext fun a => match a with | ⟨0, _⟩ => rfl | ⟨1, _⟩ => rfl
  rw [e]
  unfold table
  show Scalar.select (IntOp.cmpi .eq
        (broadcastInDim S16384x1024 ![0, 1] bcast_S16384x1_S16384x1024_0_1 (broadcastInDim S16384x1 ![0] bcast_S16384_S16384x1_0 h) (Predicate.ij j q))
        (broadcastInDim S16384x1024 ![0, 1] bcast_S1x1024_S16384x1024_0_1 (broadcastInDim S1x1024 ![1] bcast_S1024_S1x1024_1 (iotaInDim S1024 32 0)) (Predicate.ij j q)))
      (broadcastInDim S16384x1024 ![0, 1] bcast_S16384x1_S16384x1024_0_1 (broadcastInDim S16384x1 ![0] bcast_S16384_S16384x1_0 s) (Predicate.ij j q))
      (broadcastInDim S16384x1024 ![] bcast_S_S16384x1024 (constant (F := Ideal) S_ .f32 0x00000000#32) (Predicate.ij j q)) = _
  rw [Predicate.bcast_rows, Predicate.bcast_cols, Predicate.bcast_rows, Predicate.bcast_scalar _ (by decide), Predicate.iota_apply]
  show (if IntOp.cmpi .eq (h (Shape.Idx.ofFin j)) (BitVec.ofNat 32 q.val) = 1#1 then s (Shape.Idx.ofFin j)
      else Ideal.ofBits .f32 0x00000000#32) = _
  rw [Ideal.ofBits_zero_f32]
  by_cases hq : h (Shape.Idx.ofFin j) = BitVec.ofNat 32 q.val
  · rw [if_pos (Predicate.cmpi_eq_iff.mpr hq), if_pos hq]
  · rw [if_neg (fun hc => hq (Predicate.cmpi_eq_iff.mp hc)), if_neg hq]

/-! ## Where a step's blocks sit in the arrays -/

/-- Step t reads block (t / 8, t % 8) of x, -/
theorem x_block_at : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)

/-- the whole table, -/
theorem table_block_at : ∀ t : Fin cfg0.N, win0_1.index t 0 = 0 ∧ win0_1.index t 1 = 0 :=
  (by decide +kernel : ∀ t : Fin grid0.N, win0_1.index t 0 = 0 ∧ win0_1.index t 1 = 0)

/-- and of the table its rows from 2048 * (t % 8) on. -/
theorem rows_from : ∀ t : Fin cfg0.N, k0_off1 (grid0.coords t) 0 = 2048 * (t.val % 8) ∧ k0_off1 (grid0.coords t) 1 = 0 :=
  (by decide +kernel : ∀ t : Fin grid0.N, k0_off1 (grid0.coords t) 0 = 2048 * (t.val % 8) ∧ k0_off1 (grid0.coords t) 1 = 0)

/-- Entry (r, k) of step t's x block is entry (256 * (t / 8) + r, 2048 * (t % 8) + k) of x. -/
theorem x_block_apply (c : Dev nD) (t : Fin cfg0.N) (r : Fin 256) (k : Fin 2048) (i : S4096x16384.Idx)
    (h0 : (i 0).val = 256 * (t.val / 8) + r.val) (h1 : (i 1).val = 2048 * (t.val % 8) + k.val) :
    (iblk m c 0 t : Vec F S256x2048 .f32) (ix2 r k) = (V m c main_arg0 : FVec F S4096x16384 .f32) i := by
  unfold iblk
  rw [View.read_apply]
  show V m c main_arg0 _ = V m c main_arg0 i
  congr 1
  funext a
  apply Fin.ext
  match a with
  | ⟨0, _⟩ => show win0_0.index t 0 * 256 + 1 * r.val = (i 0).val; rw [(x_block_at t).1, h0]; omega
  | ⟨1, _⟩ => show win0_0.index t 1 * 2048 + 1 * k.val = (i 1).val; rw [(x_block_at t).2, h1]; omega

/-- Entry (k, q) of the table rows step t uses is entry (2048 * (t % 8) + k, q) of the table. -/
theorem rows_apply (c : Dev nD) (t : Fin cfg0.N) (k : Fin 2048) (q : Fin 1024) (j : Fin 16384)
    (hj : j.val = 2048 * (t.val % 8) + k.val) :
    tableRows (grid0.coords t) (iblk m c 1 t : Vec F S16384x1024 .bf16) (ix2 k q)
      = (V m c main_v8 : FVec F S16384x1024 .bf16) (ix2 j q) := by
  unfold tableRows View.ld iblk
  rw [View.read_apply]
  show V m c main_v8 _ = V m c main_v8 (ix2 j q)
  congr 1
  funext a
  apply Fin.ext
  match a with
  | ⟨0, _⟩ =>
    show win0_1.index t 0 * 16384 + 1 * (k0_off1 (grid0.coords t) 0 + 1 * k.val) = j.val
    rw [(table_block_at t).1, (rows_from t).1, hj]; omega
  | ⟨1, _⟩ =>
    show win0_1.index t 1 * 1024 + 1 * (k0_off1 (grid0.coords t) 1 + 1 * q.val) = q.val
    rw [(table_block_at t).2, (rows_from t).2]; omega

end Cert.KernelIdeal.Steps

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.StepValue.lean ====
/-
  One grid step's arithmetic at an entry, over the extended reals.

  With every float an extended real, narrowing to bf16 is the identity and the matrix unit's product into a
  zero accumulator is the textbook sum, so the step leaves at entry (r, q) of the output block
      prev (r, q) + ∑ k < 2048, xblk (r, k) * rows (k, q),
  and the zero block the first step starts from is 0 everywhere.
-/
import proofs.«423618_j85710367359545_2_alg».proof.Proof.Gen.KernelIdeal.Skeleton
import proofs.«423618_j85710367359545_2_alg».proof.Proof.LibPlainDot
import Idealize.ShloMosaic.Lib.Pipeline.Value

noncomputable section

namespace Cert.KernelIdeal.Steps

open Cert.KernelIdeal Cert.KernelIdeal.Gen Idealize.ShloMosaic Idealize.ShloMosaic.ValueIdx

/-- The zero block: 0 at every entry. -/
theorem zero_block_apply (y : S256x1024.Idx) : k0_pay1 (F := Ideal) y = 0 := by
  unfold k0_pay1
  show Ideal.ofBits .f32 0x00000000#32 = 0
  exact Ideal.ofBits_zero_f32

/-- The step at entry (r, q): what the block held there plus row r of the x block times column q of the table rows. -/
theorem step_apply (rows : Vec Ideal S2048x1024 .bf16) (xblk : Vec Ideal S256x2048 .f32) (prev : Vec Ideal S256x1024 .f32)
    (r : Fin 256) (q : Fin 1024) :
    k0_pay2 (F := Ideal) rows xblk prev (ix2 r q) = prev (ix2 r q) + ∑ k : Fin 2048, xblk (ix2 r k) * rows (ix2 k q) := by
  unfold k0_pay2
  simp only [shapeCast_self]
  show prev (ix2 r q) + FloatOps.matmul dot_S256x2048_S2048x1024_S256x1024_1_0_0_1_n_n none
      (truncf (F := Ideal) .bf16 xblk bitsLt_bf16_f32) rows (constant (F := Ideal) S256x1024 .f32 0x00000000#32) (ix2 r q) = _
  rw [PlainDot.matmul_zero_apply (M := 256) (K := 2048) (N := 1024) dot_S256x2048_S2048x1024_S256x1024_1_0_0_1_n_n
    rfl rfl rfl rfl rfl rfl rfl rfl]
  rfl

end Cert.KernelIdeal.Steps

end
-- ==== Proof.Sketch.lean ====
/-
  The count sketch, as one function of its three arguments, over the extended reals.

  For x of shape 4096 x 16384, a sign vector s and an index vector h (32-bit words), column j of x carries the
  weight  w j q = (s j if h j is the word for q, else 0)  into bucket q, and the sketch is
      sketch (b, q) = ∑ j < 16384, x (b, j) * w j q .
  Two facts about finite sums over the extended reals join the programs to it:
    * a sum over 16384 columns is the sum over 8 consecutive runs of 2048 columns;
    * a sum of the products over the pairs (b', j) whose bucket is (b, q) is the sum over j of x (b, j) times the weight
      (zero times anything is zero in the extended reals, so no finiteness is used).
-/
import Idealize.ShloMosaic.Lib.ValueIdx
import Idealize.ShloMosaic.Lib.SortFacts
import Idealize.ShloMosaic.PureOps.Ideal
import Mathlib.Algebra.BigOperators.Fin
import Mathlib.Algebra.BigOperators.Ring.Finset
import Mathlib.Logic.Equiv.Fin.Basic

set_option maxRecDepth 16384

noncomputable section

namespace CountSketch

open Idealize.ShloMosaic Idealize.ShloMosaic.ValueIdx

/-- The weight of column j in bucket q. -/
def weight (h : IVec ⟨1, ![16384]⟩ 32) (s : (⟨1, ![16384]⟩ : Shape).Idx → EReal) (j : Fin 16384) (q : Fin 1024) : EReal :=
  if h (Shape.Idx.ofFin j) = BitVec.ofNat 32 q.val then s (Shape.Idx.ofFin j) else 0

/-- The sketch at row b, bucket q. -/
def entry (x : (⟨2, ![4096, 16384]⟩ : Shape).Idx → EReal) (s : (⟨1, ![16384]⟩ : Shape).Idx → EReal)
    (h : IVec ⟨1, ![16384]⟩ 32) (b : Fin 4096) (q : Fin 1024) : EReal :=
  ∑ j : Fin 16384, x (ix2 b j) * weight h s j q

/-- The sketch, as an array of shape 4096 x 1024. -/
def sketch (x : (⟨2, ![4096, 16384]⟩ : Shape).Idx → EReal) (s : (⟨1, ![16384]⟩ : Shape).Idx → EReal)
    (h : IVec ⟨1, ![16384]⟩ 32) : (⟨2, ![4096, 1024]⟩ : Shape).Idx → EReal :=
  fun i => entry x s h ⟨(i 0).val, (i 0).isLt⟩ ⟨(i 1).val, (i 1).isLt⟩

theorem sketch_apply (x : (⟨2, ![4096, 16384]⟩ : Shape).Idx → EReal) (s : (⟨1, ![16384]⟩ : Shape).Idx → EReal)
    (h : IVec ⟨1, ![16384]⟩ 32) (b : Fin 4096) (q : Fin 1024) : sketch x s h (ix2 b q) = entry x s h b q := rfl

/-- The sketch at any index whose coordinates are b and q. -/
theorem sketch_at (x : (⟨2, ![4096, 16384]⟩ : Shape).Idx → EReal) (s : (⟨1, ![16384]⟩ : Shape).Idx → EReal)
    (h : IVec ⟨1, ![16384]⟩ 32) (i : (⟨2, ![4096, 1024]⟩ : Shape).Idx) (b : Fin 4096) (q : Fin 1024)
    (h0 : (i 0).val = b.val) (h1 : (i 1).val = q.val) : sketch x s h i = entry x s h b q := by
  have eb : (⟨(i 0).val, (i 0).isLt⟩ : Fin 4096) = b := Fin.ext h0
  have eq : (⟨(i 1).val, (i 1).isLt⟩ : Fin 1024) = q := Fin.ext h1
  unfold sketch
  rw [eb, eq]

/-- Column number 2048 * k + kk, kept below 16384 so that it is a column for every k. -/
abbrev col (k : ℕ) (kk : Fin 2048) : Fin 16384 := ⟨(2048 * k + kk.val) % 16384, Nat.mod_lt _ (by decide)⟩

/-- A sum over the 16384 columns, run by run: 8 runs of 2048. -/
theorem sum_by_runs (f : Fin 16384 → EReal) :
    ∑ j : Fin 16384, f j = ∑ k ∈ Finset.range 8, ∑ kk : Fin 2048, f (col k kk) := by
  rw [Finset.sum_range (fun k => ∑ kk : Fin 2048, f (col k kk))]
  have e : ∑ j : Fin 16384, f j = ∑ p : Fin 8 × Fin 2048, f (finProdFinEquiv p) :=
    (Equiv.sum_comp (finProdFinEquiv (m := 8) (n := 2048)) f).symm
  rw [e, Fintype.sum_prod_type]
  refine Finset.sum_congr rfl fun k _ => Finset.sum_congr rfl fun kk _ => ?_
  refine congrArg f (Fin.ext ?_)
  have hk := k.isLt
  have hkk := kk.isLt
  show kk.val + 2048 * k.val = (2048 * k.val + kk.val) % 16384
  omega

end CountSketch

end
-- ==== Proof.Accumulate.lean ====
/-
  The output block after each grid step, and the output array after the grid.

  Grid step t = 8 * i + k adds, at entry (r, q) of the 256 x 1024 block of row block i, the product of row
  256 * i + r of x over the columns of run k (2048 * k .. 2048 * k + 2047) with column q of the table. The block
  starts from zero at k = 0, so after step 8 * i + k it holds the sum of the products of runs 0 .. k; it is written
  back to the output array after run 7, when that sum is over all 16384 columns: the count sketch of the arguments
  at (256 * i + r, q). The blocks of the sixteen row blocks fill the array.
-/
import proofs.«423618_j85710367359545_2_alg».proof.Proof.Operands
import proofs.«423618_j85710367359545_2_alg».proof.Proof.StepValue
import proofs.«423618_j85710367359545_2_alg».proof.Proof.Sketch
import proofs.«423618_j85710367359545_2_alg».proof.Proof.Gen.KernelIdeal.Value

set_option maxRecDepth 16384

noncomputable section

namespace Cert.KernelIdeal.Steps

open Cert.KernelIdeal Cert.KernelIdeal.Gen Idealize.ShloMosaic Idealize.ShloMosaic.TcCoe Idealize.SL.Sem
open Idealize.ShloMosaic.ValueIdx
open Idealize.ShloMosaic.Pipeline (Dat)
open CountSketch (col weight sketch)

variable (m : (ℓ : Loc nD τ sig) → Buf (Elt Ideal) ℓ) (ρ : Dev nD → PrngReg)

/-- x and the table, as the grid finds them. -/
abbrev xs (c : Dev nD) : FVec Ideal S4096x16384 .f32 := V m c main_arg0
abbrev tbl (c : Dev nD) : FVec Ideal S16384x1024 .bf16 := V m c main_v8

/-- Step t's block of x and its (whole) block of the table. -/
abbrev xblk (c : Dev nD) (t : Fin cfg0.N) : Vec Ideal S256x2048 .f32 := iblk m c 0 t
abbrev tblk (c : Dev nD) (t : Fin cfg0.N) : Vec Ideal S16384x1024 .bf16 := iblk m c 1 t

/-- Row number 256 * i + r, kept below 4096 so that it is a row for every i. -/
abbrev rowOf (i : ℕ) (r : Fin 256) : Fin 4096 := ⟨(256 * i + r.val) % 4096, Nat.mod_lt _ (by decide)⟩

/-- What the step of row block i and run k adds at entry (r, q). -/
def addend (c : Dev nD) (i k : ℕ) (r : Fin 256) (q : Fin 1024) : EReal :=
  ∑ kk : Fin 2048, xs m c (ix2 (rowOf i r) (col k kk)) * tbl m c (ix2 (col k kk) q)

/-- The product step t computes, read off the whole arrays. -/
theorem product_at (c : Dev nD) (t : Fin cfg0.N) (r : Fin 256) (q : Fin 1024) :
    ∑ k : Fin 2048, xblk m c t (ix2 r k) * tableRows (grid0.coords t) (tblk m c t) (ix2 k q)
      = addend m c (t.val / 8) (t.val % 8) r q := by
  have hN : t.val < 128 := lt_of_lt_of_eq t.isLt (show cfg0.N = 128 from N_0)
  unfold addend
  refine Finset.sum_congr rfl fun k _ => ?_
  have hk := k.isLt
  have hr := r.isLt
  refine congrArg₂ (· * ·) (x_block_apply m c t r k _ ?_ ?_) (rows_apply m c t k q _ ?_)
  · show (256 * (t.val / 8) + r.val) % 4096 = 256 * (t.val / 8) + r.val; omega
  · show (2048 * (t.val % 8) + k.val) % 16384 = 2048 * (t.val % 8) + k.val; omega
  · show (2048 * (t.val % 8) + k.val) % 16384 = 2048 * (t.val % 8) + k.val; omega

/-- At the first step of a row block the output block holds that step's product. -/
theorem first_at (c : Dev nD) (t : Fin cfg0.N) (h0 : t.val % 8 = 0) (r : Fin 256) (q : Fin 1024) :
    (outsAt0 m c t.val t.isLt : Vec Ideal S256x1024 .f32) (ix2 r q) = addend m c (t.val / 8) (t.val % 8) r q := by
  rw [outsAt0_A m c t h0]
  refine (congrFun (first_step (F := Ideal) c (grid0.coords t) (ms0_0 t) (hs0_0 t) (ms0_1 t) (hs0_1 t) (ms0_2 t) (hs0_2 t)
    ((hcond0_0 t).mpr h0) (iblk m c 0 t) (iblk m c 1 t)) (ix2 r q)).trans ?_
  refine (step_apply (tableRows (grid0.coords t) (tblk m c t)) (xblk m c t) (k0_pay1 (F := Ideal)) r q).trans ?_
  rw [zero_block_apply, zero_add]
  exact product_at m c t r q

/-- At every later step it holds what the step before left plus the step's product. -/
theorem next_at (c : Dev nD) (t : Fin cfg0.N) (h0 : ¬t.val % 8 = 0) (r : Fin 256) (q : Fin 1024) :
    (outsAt0 m c t.val t.isLt : Vec Ideal S256x1024 .f32) (ix2 r q)
      = (outsAt0 m c (t.val - 1) (Nat.lt_of_le_of_lt (Nat.sub_le _ _) t.isLt) : Vec Ideal S256x1024 .f32) (ix2 r q)
        + addend m c (t.val / 8) (t.val % 8) r q := by
  rw [outsAt0_B m c t h0]
  refine (congrFun (later_step (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))) (ix2 r q)).trans ?_
  refine (step_apply (tableRows (grid0.coords t) (tblk m c t)) (xblk m c t)
    (outsAt0 m c (t.val - 1) (Nat.lt_of_le_of_lt (Nat.sub_le _ _) t.isLt)) r q).trans ?_
  exact congrArg _ (product_at m c t r q)

/-- THE RUNNING SUM. After step n the block of row block n / 8 holds, at (r, q), the products of runs 0 .. n % 8. -/
theorem after_steps (c : Dev nD) : ∀ (n : ℕ) (hn : n < cfg0.N) (r : Fin 256) (q : Fin 1024),
    (outsAt0 m c n hn : Vec Ideal S256x1024 .f32) (ix2 r q) = ∑ k ∈ Finset.range (n % 8 + 1), addend m c (n / 8) k r q := by
  intro n
  induction n with
  | zero =>
    intro hn r q
    have h := first_at m c ⟨0, hn⟩ (Nat.zero_mod 8) r q
    rw [Finset.sum_range_one]
    exact h
  | succ n ih =>
    intro hn r q
    by_cases h0 : (n + 1) % 8 = 0
    · have h := first_at m c ⟨n + 1, hn⟩ h0 r q
      rw [h0, Finset.sum_range_one]
      refine h.trans ?_
      show addend m c ((n + 1) / 8) ((n + 1) % 8) r q = _
      rw [h0]
    · have h := next_at m c ⟨n + 1, hn⟩ h0 r q
      refine h.trans ?_
      have hd : (n + 1) / 8 = n / 8 := by omega
      have hm : (n + 1) % 8 = n % 8 + 1 := by omega
      show (outsAt0 m c n _ : Vec Ideal S256x1024 .f32) (ix2 r q) + addend m c ((n + 1) / 8) ((n + 1) % 8) r q = _
      rw [ih (Nat.lt_of_succ_lt hn) r q, hd, hm, Finset.sum_range_succ _ (n % 8 + 1)]

/-! ## The block written back, and the array -/

/-- The block of row block t / 8 goes to rows 256 * (t / 8) .. of the output, all 1024 columns. -/
theorem out_block_at : ∀ t : Fin cfg0.N, win0_2.index t 0 = t.val / 8 ∧ win0_2.index t 1 = 0 :=
  (by decide +kernel : ∀ t : Fin grid0.N, win0_2.index t 0 = t.val / 8 ∧ win0_2.index t 1 = 0)

/-- The arguments, as launched. -/
abbrev argX (c : Dev nD) : FVec Ideal S4096x16384 .f32 := m ((c : Thread nD τ).loc main_arg0)
abbrev argS (c : Dev nD) : FVec Ideal S16384 .f32 := m ((c : Thread nD τ).loc main_arg1)
abbrev argH (c : Dev nD) : IVec S16384 32 := m ((c : Thread nD τ).loc main_arg2)

/-- The sum over the eight runs is the sketch's entry: the table's entries are the weights, and eight runs of 2048
    columns are the 16384 columns. -/
theorem runs_sum (c : Dev nD) (i : ℕ) (hi : i < 16) (r : Fin 256) (q : Fin 1024) :
    ∑ k ∈ Finset.range 8, addend m c i k r q = CountSketch.entry (argX m c) (argS m c) (argH m c) (rowOf i r) q := by
  unfold CountSketch.entry
  rw [CountSketch.sum_by_runs]
  refine Finset.sum_congr rfl fun k _ => ?_
  unfold addend
  refine Finset.sum_congr rfl fun kk _ => ?_
  refine congrArg₂ (· * ·) (congrFun (V_main_arg0 m c) _) ?_
  show tbl m c (ix2 (col k kk) q) = weight (argH m c) (argS m c) (col k kk) q
  rw [show tbl m c = table (argH m c) (argS m c) from table_found m c, table_apply]
  rfl

/-- WHAT A FLUSHING STEP WRITES BACK is its block of the sketch of the arguments. -/
theorem flushed_eq (c : Dev nD) (t : Fin cfg0.N) (hf : (cfg0.win 2).flush t = true) :
    (dats m 0 c).flushed 2 t = ((cfg0.win 2).blk t).view.read (Elt Ideal) (sketch (argX m c) (argS m c) (argH m c)) := by
  have h7 : t.val % 8 = 7 := (flush0_2 t).mp hf
  have hN : t.val < 128 := lt_of_lt_of_eq t.isLt (show cfg0.N = 128 from N_0)
  rw [Value.flushed2]
  funext y
  rw [View.read_apply]
  obtain ⟨r, q, rfl⟩ : ∃ (r : Fin 256) (q : Fin 1024), y = ix2 r q := ⟨y 0, y 1, eq_ix2 y⟩
  have e : (cfg0.win 2).xinj (grid0.coords t) (ix2 r q) = (ix2 r q : S256x1024.Idx) :=
    funext fun a => match a with | ⟨0, _⟩ => rfl | ⟨1, _⟩ => rfl
  refine Eq.trans (congrArg (outsAt0 m c t.val t.isLt : Vec Ideal S256x1024 .f32) e) ?_
  rw [after_steps m c t.val t.isLt r q, h7, runs_sum m c (t.val / 8) (by omega) r q]
  have hr := r.isLt
  rw [← CountSketch.sketch_at (argX m c) (argS m c) (argH m c) (ix2 (rowOf (t.val / 8) r) q) (rowOf (t.val / 8) r) q rfl rfl]
  congr 1
  funext a
  apply Fin.ext
  match a with
  | ⟨0, _⟩ =>
    show (256 * (t.val / 8) + r.val) % 4096 = win0_2.index t 0 * 256 + 1 * r.val
    rw [(out_block_at t).1]; omega
  | ⟨1, _⟩ =>
    show q.val = win0_2.index t 1 * 1024 + 1 * q.val
    rw [(out_block_at t).2]; omega

/-- An index of the output is in step t's block iff each coordinate is in the block's range. -/
theorem mem_out_block (t : Fin cfg0.N) (i : S4096x1024.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v9).slice (win0_2.rect t)).set ↔ _
  rw [View.set_slice_whole, Rect.mem_set_unit]
  exact Iff.rfl

/-- Every index of the output lies in the block some flushing step writes back: row b is in row block b / 256. -/
theorem covered (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  have hN : cfg0.N = 128 := N_0
  refine ⟨⟨8 * ((i 0).val / 256) + 7, by rw [hN]; omega⟩, (flush0_2 _).mpr (by show (8 * ((i 0).val / 256) + 7) % 8 = 7; omega), ?_⟩
  rw [mem_out_block]
  obtain ⟨e0, e1⟩ := out_block_at ⟨8 * ((i 0).val / 256) + 7, by rw [hN]; omega⟩
  intro a
  match a with
  | ⟨0, _⟩ =>
    show win0_2.index _ 0 * 256 ≤ (i 0).val ∧ (i 0).val < win0_2.index _ 0 * 256 + 256
    rw [e0]; show (8 * ((i 0).val / 256) + 7) / 8 * 256 ≤ (i 0).val ∧ (i 0).val < (8 * ((i 0).val / 256) + 7) / 8 * 256 + 256
    omega
  | ⟨1, _⟩ =>
    show win0_2.index _ 1 * 1024 ≤ (i 1).val ∧ (i 1).val < win0_2.index _ 1 * 1024 + 1024
    rw [e1]; omega

/-- THE OUTPUT ARRAY after the grid is the sketch of the arguments. -/
theorem final (c : Dev nD) : (dats m 0 c).arrAt 2 cfg0.N = sketch (argX m c) (argS m c) (argH m c) :=
  (dats m 0 c).arrAt_eq_of_cover 2 (sketch (argX m c) (argS m c) (argH m c)) (flushed_eq m c) covered

/-- The program's run: it ends with the result array at the sketch of the arguments, the arguments unchanged. -/
theorem run : θ_run defs (onTc (τ := τ) (main (F := Ideal))) ⟨m, fun _ => 0, ρ⟩ fun r => ∀ c : Dev nD,
      r.2.mem ((c : Thread nD τ).loc main_v9) = sketch (argX m c) (argS m c) (argH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Steps

end
-- ==== Proof.RefValue.lean ====
/-
  The reference's result, entry by entry.

  The reference multiplies column j of x by s j and scatter-adds the products into a zero array: the product at
  (b', j) goes to row b' and to the column the index vector names for j, a negative index counted from the end
  and an index outside the 1024 columns dropped. When every index is a bucket number 0 .. 1023 nothing is
  counted from the end and nothing is dropped: (b', j) lands at (b', h j), so entry (b, q) collects the products
  of row b over the columns j with h j = q — the sum over all j of x (b, j) times the weight of j in bucket q.
-/
import proofs.«423618_j85710367359545_2_alg».proof.Proof.Gen.ReferenceIdeal.Read
import proofs.«423618_j85710367359545_2_alg».proof.Proof.Sketch
import Idealize.ShloMosaic.Lib.StableHlo.Predicate
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.StableHlo
open Idealize.ShloMosaic.ValueIdx

/-- The scatter's dimension numbers: rows kept, the one index component names the column. -/
abbrev sd := scatter_S4096x1024_S16384x1_S4096x16384_0_1_1_1

/-! ## Where an update lands -/

theorem start_row (u : S4096x16384.Idx) (idx : IVec S16384x1 32) : sd.start u idx 0 = 0 := by
  unfold ScatterDims.start
  rw [dif_neg (by show ¬ (0 : Fin 2) ∈ [(1 : Fin 2)]; decide)]

theorem start_col (u : S4096x16384.Idx) (idx : IVec S16384x1 32) :
    sd.start u idx 1 = (idx (Predicate.ixP (u 1))).toInt := by
  unfold ScatterDims.start
  rw [dif_pos (by show (1 : Fin 2) ∈ [(1 : Fin 2)]; decide)]
  congr 2
  funext b
  apply Fin.ext
  match b with
  | ⟨0, _⟩ => rfl
  | ⟨1, _⟩ => rfl

theorem window_row (u : S4096x16384.Idx) : sd.window u 0 = (u 0).val := by
  unfold ScatterDims.window
  rw [dif_pos (by show (0 : Fin 2) ∈ sd.sKept; decide)]
  rfl

theorem window_col (u : S4096x16384.Idx) : sd.window u 1 = 0 := by
  unfold ScatterDims.window
  rw [dif_neg (by show ¬ (1 : Fin 2) ∈ sd.sKept; decide)]

/-- With every index a bucket number, the update at (b', j) lands at row b' and column `idx j`. -/
theorem lands (idx : IVec S16384x1 32)
    (hr : ∀ j : Fin 16384, 0 ≤ (idx (Predicate.ixP j)).toInt ∧ (idx (Predicate.ixP j)).toInt < 1024)
    (u : S4096x16384.Idx) :
    sd.resultIdx? u idx
      = some (ix2 (u 0) ⟨(idx (Predicate.ixP (u 1))).toInt.toNat, by have := hr (u 1); omega⟩) := by
  have h0 : (u 0).val < 4096 := (u 0).isLt
  have h1 := hr (u 1)
  have h : ∀ a, 0 ≤ sd.start u idx a + sd.window u a ∧ sd.start u idx a + sd.window u a < S4096x1024.size a := by
    intro a
    match a with
    | ⟨0, _⟩ =>
      show 0 ≤ sd.start u idx 0 + sd.window u 0 ∧ sd.start u idx 0 + sd.window u 0 < ((4096 : ℕ) : ℤ)
      rw [start_row, window_row]; omega
    | ⟨1, _⟩ =>
      show 0 ≤ sd.start u idx 1 + sd.window u 1 ∧ sd.start u idx 1 + sd.window u 1 < ((1024 : ℕ) : ℤ)
      rw [start_col, window_col]; omega
  unfold ScatterDims.resultIdx?
  rw [dif_pos h]
  congr 1
  funext a
  apply Fin.ext
  match a with
  | ⟨0, _⟩ =>
    show (sd.start u idx 0 + sd.window u 0).toNat = (u 0).val
    rw [start_row, window_row]; omega
  | ⟨1, _⟩ =>
    show (sd.start u idx 1 + sd.window u 1).toNat = (idx (Predicate.ixP (u 1))).toInt.toNat
    rw [start_col, window_col]; omega

/-! ## Words that are bucket numbers -/

/-- A word whose signed value is in 0 .. 1023 has that value q exactly when it is the word for q. -/
theorem word_eq_iff (w : BitVec 32) (h0 : 0 ≤ w.toInt) (h1 : w.toInt < 1024) (q : Fin 1024) :
    w.toInt.toNat = q.val ↔ w = BitVec.ofNat 32 q.val := by
  have hq := q.isLt
  have hw : w.toInt = (w.toNat : ℤ) := by
    have c := BitVec.toInt_eq_toNat_cond w
    have l := w.isLt
    split at c <;> omega
  constructor
  · intro h
    apply BitVec.eq_of_toNat_eq
    rw [BitVec.toNat_ofNat]
    omega
  · intro h
    have e := congrArg BitVec.toNat h
    rw [BitVec.toNat_ofNat] at e
    omega

/-- The index the scatter reads for column j is the index vector's entry, when that is not negative. -/
theorem index_read (H : IVec S16384 32) (hr : ∀ j : S16384.Idx, 0 ≤ (H j).toInt ∧ (H j).toInt < 1024) (j : Fin 16384) :
    Read.val_main_v9 (F := Ideal) H (Predicate.ixP j) = H (Shape.Idx.ofFin j) := by
  have e : Read.idx_main_v9 (Predicate.ixP j) = Shape.Idx.ofFin j :=
    funext fun a => match a with | ⟨0, _⟩ => Fin.ext rfl
  rw [Read.val_main_v9_apply, e, Read.val_main_v8_apply, Read.val_main_v5_apply, Read.val_main_v4_apply,
    Read.val_main_c_apply]
  have hn : ¬ IntOp.cmpi .slt (H (Shape.Idx.ofFin j)) 0#32 = 1#1 := by
    have := (hr (Shape.Idx.ofFin j)).1
    simp only [IntOp.cmpi, Predicate.ofBool_eq_one_iff, BitVec.slt, decide_eq_true_eq]
    have z : (0#32).toInt = 0 := by decide
    rw [z]; omega
  show (if IntOp.cmpi .slt (H (Shape.Idx.ofFin j)) 0#32 = 1#1 then _ else H (Shape.Idx.ofFin j)) = _
  rw [if_neg hn]

/-- The update at (b', j) lands on entry (b, q) exactly when b' = b and the index of j is the word for q. -/
theorem hits_iff (H : IVec S16384 32) (hr : ∀ j : S16384.Idx, 0 ≤ (H j).toInt ∧ (H j).toInt < 1024)
    (b' b : Fin 4096) (j : Fin 16384) (q : Fin 1024) :
    sd.resultIdx? (ix2 b' j) (Read.val_main_v9 (F := Ideal) H) = some (ix2 b q)
      ↔ b' = b ∧ H (Shape.Idx.ofFin j) = BitVec.ofNat 32 q.val := by
  have hr' : ∀ j : Fin 16384, 0 ≤ (Read.val_main_v9 (F := Ideal) H (Predicate.ixP j)).toInt
      ∧ (Read.val_main_v9 (F := Ideal) H (Predicate.ixP j)).toInt < 1024 := fun j => by
    rw [index_read H hr j]; exact hr _
  rw [lands _ hr' (ix2 b' j)]
  have hj := hr (Shape.Idx.ofFin j)
  constructor
  · intro h
    have h' := Option.some.inj h
    have e0 : b' = b := congrFun h' 0
    have e1 := congrArg Fin.val (congrFun h' 1)
    refine ⟨e0, (word_eq_iff _ hj.1 hj.2 q).mp ?_⟩
    rw [← index_read H hr j]
    exact e1
  · rintro ⟨rfl, hq⟩
    congr 1
    funext a
    match a with
    | ⟨0, _⟩ => rfl
    | ⟨1, _⟩ =>
      apply Fin.ext
      show (Read.val_main_v9 (F := Ideal) H (Predicate.ixP j)).toInt.toNat = q.val
      rw [index_read H hr j]
      exact (word_eq_iff _ hj.1 hj.2 q).mpr hq

/-! ## The result at an entry -/

/-- The product the reference scatters from (b', j): x (b', j) times s j. -/
theorem update_apply (X : FVec Ideal S4096x16384 .f32) (S : FVec Ideal S16384 .f32) (b' : Fin 4096) (j : Fin 16384) :
    Read.val_main_v2 (F := Ideal) X S (ix2 b' j) = X (ix2 b' j) * S (Shape.Idx.ofFin j) := by
  have e : Read.idx_main_v0 (Read.idx_main_v1 (ix2 b' j)) = Shape.Idx.ofFin j :=
    funext fun a => match a with | ⟨0, _⟩ => Fin.ext rfl
  rw [Read.val_main_v2_apply, Read.val_main_v1_apply, Read.val_main_v0_apply, e]
  rfl

/-- THE REFERENCE AT AN ENTRY: with every index a bucket number, entry (b, q) of its result is the sketch's. -/
theorem result_apply (X : FVec Ideal S4096x16384 .f32) (S : FVec Ideal S16384 .f32) (H : IVec S16384 32)
    (hr : ∀ j : S16384.Idx, 0 ≤ (H j).toInt ∧ (H j).toInt < 1024) (b : Fin 4096) (q : Fin 1024) :
    Read.val_main_v10 (F := Ideal) X S H (ix2 b q) = CountSketch.entry X S H b q := by
  unfold Read.val_main_v10
  show Ideal.hostScatterAdd sd (Read.val_main_v3 (F := Ideal)) (Read.val_main_v9 (F := Ideal) H)
    (Read.val_main_v2 (F := Ideal) X S) (ix2 b q) = _
  unfold Ideal.hostScatterAdd
  have z : Read.val_main_v3 (F := Ideal) (ix2 b q) = 0 := by
    rw [Read.val_main_v3_apply, Read.val_main_cst_apply]
    exact Ideal.ofBits_zero_f32
  rw [z, zero_add, Finset.sum_filter, sum_idx2, Finset.sum_eq_single b]
  · unfold CountSketch.entry
    refine Finset.sum_congr rfl fun j _ => ?_
    unfold CountSketch.weight
    by_cases hq : H (Shape.Idx.ofFin j) = BitVec.ofNat 32 q.val
    · rw [if_pos ((hits_iff H hr b b j q).mpr ⟨rfl, hq⟩), if_pos hq, update_apply]
    · rw [if_neg (fun h => hq ((hits_iff H hr b b j q).mp h).2), if_neg hq, mul_zero]
  · intro b' _ hb
    refine Finset.sum_eq_zero fun j _ => ?_
    rw [if_neg (fun h => hb ((hits_iff H hr b' b j q).mp h).1)]
  · intro h
    exact absurd (Finset.mem_univ b) h

/-- The reference's result array is the sketch of its arguments. -/
theorem result_eq (X : FVec Ideal S4096x16384 .f32) (S : FVec Ideal S16384 .f32) (H : IVec S16384 32)
    (hr : ∀ j : S16384.Idx, 0 ≤ (H j).toInt ∧ (H j).toInt < 1024) :
    Read.val_main_v10 (F := Ideal) X S H = CountSketch.sketch X S H := by
  funext i
  obtain ⟨b, q, rfl⟩ : ∃ (b : Fin 4096) (q : Fin 1024), i = ix2 b q := ⟨i 0, i 1, eq_ix2 i⟩
  rw [result_apply X S H hr b q]
  rfl

end Cert.ReferenceIdeal.RefValue

end
-- ==== Proof.IndexRange.lean ====
/-
  What the precondition says of the index vector.

  The precondition is a conjunction of four "for all entries" tests; the last two say that every entry of the
  index vector, read as a signed 32-bit integer, is at least 0 and below 1024: each entry names one of the
  1024 buckets.
-/
import proofs.«423618_j85710367359545_2_alg».proof.Pre_finite_inputs
import Idealize.ShloMosaic.Lib.ReduceAll
import Idealize.ShloMosaic.Lib.Affine
import Idealize.ShloMosaic.Lib.StableHlo.Predicate
import Idealize.ShloMosaic.Lib.ValueIdx

set_option maxRecDepth 16384

noncomputable section

namespace Cert.Pre_finite_inputs.Range

open Cert.Pre_finite_inputs Idealize.ShloMosaic Idealize.ShloMosaic.StableHlo

instance : Subsingleton S_.Idx := ⟨fun a b => funext fun d => d.elim0⟩

variable [Facts] {F : FTy → Type} [FloatOps F]

/-- Under the precondition every index entry is a bucket number: 0 ≤ h j < 1024 as signed integers. -/
theorem bucket_range (x : FVec F S4096x16384 .f32) (s : FVec F S16384 .f32) (h : IVec S16384 32)
    (hpre : fn (F := F) x s h = fun _ => 1#1) (j : S16384.Idx) : 0 ≤ (h j).toInt ∧ (h j).toInt < 1024 := by
  have e := congrFun hpre ValueIdx.ix0
  dsimp only [fn, fn_part1] at e
  obtain ⟨e12, e15⟩ := IntOp.andi_eq_one.mp e
  obtain ⟨-, e11⟩ := IntOp.andi_eq_one.mp e12
  have hge := Host.reduce_andi_all _ _ _ _ _ e11 j
  have hlt := Host.reduce_andi_all _ _ _ _ _ e15 j
  change IntOp.cmpi .sge (h j) (0#32) = 1#1 at hge
  change IntOp.cmpi .slt (h j) (1024#32) = 1#1 at hlt
  simp only [IntOp.cmpi, Predicate.ofBool_eq_one_iff, BitVec.sle, BitVec.slt, decide_eq_true_eq] at hge hlt
  have z : (0#32).toInt = 0 := by decide
  have k : (1024#32).toInt = 1024 := by decide
  rw [z] at hge
  rw [k] at hlt
  exact ⟨hge, hlt⟩

end Cert.Pre_finite_inputs.Range

end
-- ==== Proof.lean ====
/-
  A count sketch, computed two ways, is one function of its arguments over the extended reals.

  The arguments are x (4096 x 16384), a sign vector s and an index vector h (16384 entries each). Column j of x
  carries the weight  w j q = (s j if h j = q, else 0)  into bucket q of 1024, and the sketch is
      sketch (b, q) = ∑ j < 16384, x (b, j) * w j q .

  One program multiplies the columns of x by s and scatter-adds them into a zero array at the columns h names.
  The other first builds the 16384 x 1024 table of the weights and multiplies x by it on a grid: sixteen row
  blocks of 256 rows, and for each of them eight steps over runs of 2048 columns, the 256 x 1024 output block
  zeroed at the first step, added into at every step, and written back after the last.

  The two agree when every entry of h is a bucket number, 0 ≤ h j < 1024, which the precondition states: then
  the scatter counts no index from the end and drops none, and an update lands in the bucket whose column of
  the table holds its sign. Over the extended reals both results are the sum above: on one side the eight runs of
  2048 columns are the 16384 columns; on the other the updates that land on (b, q) are those of row b over the
  columns j with h j = q, and every other column contributes x (b, j) * 0 = 0. No finiteness is used.

  The three frame claims are the programs' runs; nothing was rewritten between the two readings of the first
  program, so the fourth claim is trivial.
-/
import proofs.«423618_j85710367359545_2_alg».proof.Defs
import proofs.«423618_j85710367359545_2_alg».proof.Proof.Gen.Kernel
import proofs.«423618_j85710367359545_2_alg».proof.Proof.Gen.Kernel.Skeleton
import proofs.«423618_j85710367359545_2_alg».proof.Proof.Gen.Kernel.Launch
import proofs.«423618_j85710367359545_2_alg».proof.Proof.Gen.Kernel.Points
import proofs.«423618_j85710367359545_2_alg».proof.Proof.Gen.Kernel.Frame
import proofs.«423618_j85710367359545_2_alg».proof.Proof.Gen.KernelIdeal
import proofs.«423618_j85710367359545_2_alg».proof.Proof.Gen.KernelIdeal.Skeleton
import proofs.«423618_j85710367359545_2_alg».proof.Proof.Gen.KernelIdeal.Launch
import proofs.«423618_j85710367359545_2_alg».proof.Proof.Gen.KernelIdeal.Points
import proofs.«423618_j85710367359545_2_alg».proof.Proof.Gen.KernelIdeal.Frame
import proofs.«423618_j85710367359545_2_alg».proof.Proof.Gen.ReferenceIdeal
import proofs.«423618_j85710367359545_2_alg».proof.Proof.Gen.Pre_finite_inputs
import proofs.«423618_j85710367359545_2_alg».proof.Proof.Gen.KernelIdeal.Value
import proofs.«423618_j85710367359545_2_alg».proof.Proof.Gen.ReferenceIdeal.Run
import proofs.«423618_j85710367359545_2_alg».proof.Proof.Gen.ReferenceIdeal.Read
import proofs.«423618_j85710367359545_2_alg».proof.Proof.Accumulate
import proofs.«423618_j85710367359545_2_alg».proof.Proof.RefValue
import proofs.«423618_j85710367359545_2_alg».proof.Proof.IndexRange
import Idealize.ShloMosaic.Adequacy
import Idealize.ShloMosaic.Init

set_option maxRecDepth 16384

noncomputable section

namespace Cert.Proof

open Idealize.ShloMosaic Idealize.SL.Sem

/-- The word-level program runs and leaves its arguments alone. -/
theorem frame_words : Cert.frame_Kernel := fun m ρ _ => Cert.Kernel.Gen.frame m ρ

/-- So does the same program read over the extended reals. -/
theorem frame_reals : Cert.frame_KernelIdeal := fun m ρ _ => Cert.KernelIdeal.Gen.frame m ρ

/-- So does the scatter-add program: its run, with the result forgotten. -/
theorem frame_scatter : Cert.frame_ReferenceIdeal := fun m ρ _ =>
  (θ_run Cert.ReferenceIdeal.defs _ _).mono (fun _ h c => (h c).2) (Cert.ReferenceIdeal.Value.run (F := Ideal) m ρ)

/-- Reading the first program over the extended reals rewrote nothing. -/
theorem same_text : Cert.preserves_Kernel_KernelIdeal := trivial

/-- Both programs end with the sketch of arguments that agree. -/
theorem both_sketch : Cert.algebraic_KernelIdeal_ReferenceIdeal := by
  intro m ρ m' ρ' hpre hagree
  refine ⟨fun c => CountSketch.sketch (Cert.KernelIdeal.Steps.argX m c) (Cert.KernelIdeal.Steps.argS m c)
    (Cert.KernelIdeal.Steps.argH m c), Cert.KernelIdeal.Steps.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2]
  exact Cert.ReferenceIdeal.RefValue.result_eq _ _ _
    (fun j => Cert.Pre_finite_inputs.Range.bucket_range _ _ _ (hpre c) j)

theorem claim : Cert.Claim := ⟨Cert.Kernel.Gen.facts, Cert.KernelIdeal.Gen.facts, Cert.ReferenceIdeal.Gen.facts, Cert.Pre_finite_inputs.Gen.facts,
  frame_words, frame_reals, frame_scatter, same_text, both_sketch⟩

end Cert.Proof

end
